-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x2048x64 : Shape := ⟨3, ![1, 2048, 64]⟩
abbrev S2048x64 : Shape := ⟨2, ![2048, 64]⟩
abbrev S64x64 : Shape := ⟨2, ![64, 64]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x16x2048x64_S32x2048x64 : S2x16x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  shapeCasts_S2048x64_S1x2048x64 : S2048x64.ShapeCasts S1x2048x64
  shapeCasts_S32x2048x64_S2x16x2048x64 : S32x2048x64.ShapeCasts S2x16x2048x64
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S32x2048x64.size a
  hwx0_3 : ∀ i : grid0.Coords, EltTy.bits .f32 = 32 ∨ (Rect.block (s := S32x2048x64) S1x2048x64.size (cc0_transform_3 i) (hinb0_3 i)).WholeWords (EltTy.packing .f32)

variable [Facts₀]

def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.TripleProduct.lean ====
/-
  Three matrices multiplied, in the two groupings.

  For one batch entry (b, h) write Q, K, V for the 2048 × 64 matrices of queries, keys and values.  The reference
  forms the 2048 × 2048 matrix of scores Q Kᵀ first and multiplies it by V; the kernel forms the 64 × 64 matrix Kᵀ V
  first and multiplies Q by it.  Entry (l, e) of either result is the double sum, over the key position m and the
  head coordinate d, of Q[l, d] · K[m, d] · V[m, e]:

      scores first      ∑ m, (∑ d, Q[l, d] · K[m, d]) · V[m, e]
      key-value first   ∑ d, Q[l, d] · (∑ m, K[m, d] · V[m, e])

  The two are joined by distributing each outer factor over the inner sum and exchanging the two sums.  On the
  extended reals distributivity fails at the infinities (∞ · (1 + (−1)) against ∞ · 1 + ∞ · (−1)), so the law is
  proved for entries that are real numbers: there both sides are the coercion of one real double sum.
-/
import Idealize.ShloMosaic.PureOps.Ideal
import Idealize.ShloMosaic.Lib.ValueIdx

noncomputable section

namespace Cert.TripleProduct

open Idealize.ShloMosaic Idealize.ShloMosaic.ValueIdx

/-- The arrays' shape: batch 2, heads 16, sequence 2048, head dimension 64. -/
abbrev BHLD : Shape := ⟨4, ![2, 16, 2048, 64]⟩

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The regrouping over the reals: a row `a` against the product of `bᵀ` and a column `c`, and the row of products
    `a · bᵀ` against `c`, are one double sum. -/
theorem regroup_real {D M : Type*} [Fintype D] [Fintype M] (a : D → ℝ) (b : M → D → ℝ) (c : M → ℝ) :
    ∑ d, a d * ∑ m, b m d * c m = ∑ m, (∑ d, a d * b m d) * c m := by
  simp only [Finset.mul_sum, Finset.sum_mul]
  rw [Finset.sum_comm]
  exact Finset.sum_congr rfl fun m _ => Finset.sum_congr rfl fun d _ => by ring

/-- The same on the extended reals, for real entries: both sides are the coercion of the real double sum. -/
theorem regroup {D M : Type*} [Fintype D] [Fintype M] (a : D → ℝ) (b : M → D → ℝ) (c : M → ℝ) :
    ∑ d, (a d : EReal) * ∑ m, (b m d : EReal) * (c m : EReal)
      = ∑ m, (∑ d, (a d : EReal) * (b m d : EReal)) * (c m : EReal) := by
  simp only [← EReal.coe_mul, ← coe_sum]
  exact congrArg _ (regroup_real a b c)

/-- The reference's grouping at entry (b, h, l, e): row l of the scores Q Kᵀ against column e of V. -/
def scoresFirst (q k v : BHLD.Idx → EReal) : BHLD.Idx → EReal := fun i =>
  ∑ m : Fin 2048, (∑ d : Fin 64, q (ix4 (i 0) (i 1) (i 2) d) * k (ix4 (i 0) (i 1) m d)) * v (ix4 (i 0) (i 1) m (i 3))

/-- The kernel's grouping at the same entry: row l of Q against column e of the 64 × 64 matrix Kᵀ V. -/
def keyValueFirst (q k v : BHLD.Idx → EReal) : BHLD.Idx → EReal := fun i =>
  ∑ d : Fin 64, q (ix4 (i 0) (i 1) (i 2) d) * ∑ m : Fin 2048, k (ix4 (i 0) (i 1) m d) * v (ix4 (i 0) (i 1) m (i 3))

/-- An array all of whose entries are real numbers. -/
def AllReal (x : BHLD.Idx → EReal) : Prop := ∀ i, x i ≠ ⊤ ∧ x i ≠ ⊥

/-- For arrays of real numbers the two groupings agree at every entry. -/
theorem keyValueFirst_eq_scoresFirst {q k v : BHLD.Idx → EReal} (hq : AllReal q) (hk : AllReal k) (hv : AllReal v) :
    keyValueFirst q k v = scoresFirst q k v := by
  choose qr hqr using fun i => (⟨(q i).toReal, (EReal.coe_toReal (hq i).1 (hq i).2).symm⟩ : ∃ r : ℝ, q i = r)
  choose kr hkr using fun i => (⟨(k i).toReal, (EReal.coe_toReal (hk i).1 (hk i).2).symm⟩ : ∃ r : ℝ, k i = r)
  choose vr hvr using fun i => (⟨(v i).toReal, (EReal.coe_toReal (hv i).1 (hv i).2).symm⟩ : ∃ r : ℝ, v i = r)
  funext i
  unfold keyValueFirst scoresFirst
  simp only [hqr, hkr, hvr]
  exact regroup (fun d => qr (ix4 (i 0) (i 1) (i 2) d)) (fun m d => kr (ix4 (i 0) (i 1) m d))
    (fun m => vr (ix4 (i 0) (i 1) m (i 3)))

end Cert.TripleProduct

end
-- ==== Proof.FiniteInputs.lean ====
/-
  What the precondition says of the three arrays.

  The precondition is the conjunction, over q, k and v, of "every entry x has |x| < +∞".  On the extended reals
  |x| is max x (−x) and +∞ is ⊤, so the comparison holds exactly when x is neither ⊤ nor ⊥: x is a real number.
  Each conjunct is an "and" over all entries of the array, which is 1 only if every entry's comparison is 1.
-/
import proofs.«136463_j52398601012060_1_alg».proof.Pre_finite_inputs
import proofs.«136463_j52398601012060_1_alg».proof.Proof.TripleProduct
import Idealize.ShloMosaic.Lib.ReduceAll
import Idealize.ShloMosaic.PureOps.Ideal.Laws

namespace Cert.FiniteInputs

open Idealize.ShloMosaic Cert.Pre_finite_inputs Cert.TripleProduct

variable [Cert.Pre_finite_inputs.Facts]

/-- The rank-0 shape has one index. -/
instance : Subsingleton S_.Idx := ⟨fun a b => funext fun d => d.elim0⟩

/-- The f32 word of +∞ is the top of the extended reals. -/
theorem inf_word : Ideal.ofBits .f32 0x7F800000#32 = (⊤ : EReal) := by simp [Ideal.ofBits, Ideal.ieee]

/-- `|x| < ⊤` holds only of a real number. -/
theorem real_of_abs_lt_top (x : EReal) (h : Ideal.cmp .olt (max x (-x)) ⊤ = 1#1) : x ≠ ⊤ ∧ x ≠ ⊥ := by
  unfold Ideal.cmp at h
  have hlt : max x (-x) < ⊤ := by
    by_contra hn
    simp [hn] at h
  rw [max_lt_iff] at hlt
  refine ⟨hlt.1.ne, fun hb => ?_⟩
  subst hb
  simp at hlt

/-- One conjunct of the precondition: the "and" over all entries of `|x| < +∞` is 1, so every entry is real. -/
theorem allReal_of_all (x : FVec Ideal S2x16x2048x64 .f32)
    (e : Host.reduce IntOp.andi
        (cmpf .olt (Host.absf x) (broadcastInDim S2x16x2048x64 ![] Facts.bcast_S_S2x16x2048x64 (constant S_ .f32 0x7F800000#32)))
        (constantI S_ 1 1#1) Facts.reducesTo_S2x16x2048x64_S_d0_1_2_3 Facts.h_S_ ValueIdx.ix0 = 1#1) :
    AllReal x := by
  intro i
  have hi := Host.reduce_andi_all _ _ _ _ _ e i
  have h2 : Ideal.cmp .olt (max (x i) (-(x i))) (Ideal.ofBits .f32 0x7F800000#32) = 1#1 := hi
  rw [inf_word] at h2
  exact real_of_abs_lt_top _ h2

/-- The precondition, all ones, makes each of the three arrays an array of real numbers. -/
theorem allReal_of_pre (x0 x1 x2 : FVec Ideal S2x16x2048x64 .f32) (h : fn (F := Ideal) x0 x1 x2 = fun _ => 1#1) :
    AllReal x0 ∧ AllReal x1 ∧ AllReal x2 := by
  have h0 := congrFun h ValueIdx.ix0
  dsimp only [fn] at h0
  obtain ⟨h01, h2⟩ := IntOp.andi_eq_one.1 h0
  obtain ⟨h0', h1⟩ := IntOp.andi_eq_one.1 h01
  exact ⟨allReal_of_all x0 h0', allReal_of_all x1 h1, allReal_of_all x2 h2⟩

end Cert.FiniteInputs
-- ==== Proof.ReferenceValue.lean ====
/-
  The reference computes the scores-first grouping.

  Its first contraction is, at (b, h, l, m), the sum over the head coordinate d of q[b, h, l, d] · k[b, h, m, d]: the
  score of query l against key m.  Its second is, at (b, h, l, e), the sum over the key position m of that score times
  v[b, h, m, e].  Read index by index this is `scoresFirst`.
-/
import proofs.«136463_j52398601012060_1_alg».proof.Proof.Gen.ReferenceIdeal.Read
import proofs.«136463_j52398601012060_1_alg».proof.Proof.TripleProduct

namespace Cert.ReferenceIdeal.Scores

open Cert.ReferenceIdeal Cert.ReferenceIdeal.Read Idealize.ShloMosaic Idealize.ShloMosaic.ValueIdx Cert.TripleProduct

/-- The score at (b, h, l, m) reads the query at (b, h, l, d) … -/
theorem query_index (j : S2x16x2048x2048.Idx) (d : Fin 64) : lidx_main_v0 j d = ix4 (j 0) (j 1) (j 2) d :=
  funext fun a => by match a with | ⟨0, _⟩ => rfl | ⟨1, _⟩ => rfl | ⟨2, _⟩ => rfl | ⟨3, _⟩ => rfl

/-- … and the key at (b, h, m, d). -/
theorem key_index (j : S2x16x2048x2048.Idx) (d : Fin 64) : ridx_main_v0 j d = ix4 (j 0) (j 1) (j 3) d :=
  funext fun a => by match a with | ⟨0, _⟩ => rfl | ⟨1, _⟩ => rfl | ⟨2, _⟩ => rfl | ⟨3, _⟩ => rfl

/-- The result at (b, h, l, e) reads the scores at (b, h, l, m) … -/
theorem score_index (i : S2x16x2048x64.Idx) (m : Fin 2048) : lidx_main_v1 i m = ix4 (i 0) (i 1) (i 2) m :=
  funext fun a => by match a with | ⟨0, _⟩ => rfl | ⟨1, _⟩ => rfl | ⟨2, _⟩ => rfl | ⟨3, _⟩ => rfl

/-- … and the value at (b, h, m, e). -/
theorem value_index (i : S2x16x2048x64.Idx) (m : Fin 2048) : ridx_main_v1 i m = ix4 (i 0) (i 1) m (i 3) :=
  funext fun a => by match a with | ⟨0, _⟩ => rfl | ⟨1, _⟩ => rfl | ⟨2, _⟩ => rfl | ⟨3, _⟩ => rfl

/-- The reference's result, as a function of the three arrays, is the scores-first grouping. -/
theorem reference_eq (q k v : FVec Ideal S2x16x2048x64 .f32) :
    val_main_v1 (F := Ideal) q k v = scoresFirst q k v := by
  funext i
  rw [val_main_v1_apply]
  unfold scoresFirst
  refine Finset.sum_congr rfl fun m _ => ?_
  rw [val_main_v0_apply, value_index]
  refine congrArg (· * v (ix4 (i 0) (i 1) m (i 3))) (Finset.sum_congr rfl fun d _ => ?_)
  rw [query_index, key_index, score_index]
  rfl

end Cert.ReferenceIdeal.Scores
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.LibTransposedLhsMatmul.lean ====
/-
  A matrix product with the left operand transposed, read at an entry.  For a `K × M` matrix `a` and a `K × N` matrix
  `b`, both contracted on their first axis and with no batch axis — the `M × N` product `aᵀ b` — a `tpu.matmul` into
  the zero splat is, at the extended reals and at row `r`, column `c`, the sum over `k : Fin K` of `a` at `(k, r)`
  times `b` at `(k, c)`.  Nothing here names a program.
-/
import Idealize.ShloMosaic.PureOps.Ideal.Laws
import Idealize.ShloMosaic.Lib.ValueIdx

namespace Cert.TransposedLhsMatmul

open Idealize.ShloMosaic Idealize.ShloMosaic.ValueIdx

/-- The dimension numbers `<[0], [0], [1], [1], [0, 1, 1, 1], [], []>`: `K × M` by `K × N`, each operand contracted on
    its first axis; the result's rows are the left operand's columns, its columns the right operand's. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

/-- The left operand's index at output `(r, c)` and contraction coordinate `k` is `(k, r)`. -/
theorem lhsIdx_dims {K M N : ℕ} (r : Fin M) (c : Fin N) (k : Fin K) :
    (dims K M N).lhsIdx (ix2 r c) ((contrEquiv1 (dims K M N) K rfl rfl).symm k) = ix2 k r := by
  have hk := contrEquiv1_symm_val (dims K M N) K rfl rfl k
  funext a
  apply Fin.ext
  match a with
  | ⟨0, _⟩ => exact ((dims K M N).lhsIdx_val_of_single rfl (ix2 r c) _).trans hk
  | ⟨1, _⟩ => rfl

/-- The right operand's index there is `(k, c)`. -/
theorem rhsIdx_dims {K M N : ℕ} (r : Fin M) (c : Fin N) (k : Fin K) :
    (dims K M N).rhsIdx (ix2 r c) ((contrEquiv1 (dims K M N) K rfl rfl).symm k) = ix2 k c := by
  have hk := contrEquiv1_symm_val (dims K M N) K rfl rfl k
  funext a
  apply Fin.ext
  match a with
  | ⟨0, _⟩ => exact ((dims K M N).rhsIdx_val_of_single rfl (ix2 r c) _).trans hk
  | ⟨1, _⟩ => rfl

/-- A `tpu.matmul` with these dimension numbers into zeros, at entry `(r, c)`, is `∑ k, a (k, r) * b (k, c)` on the
    extended reals. -/
theorem matmul_transposedLhs_zero_apply {K M N : ℕ} {φ₁ φ₂ : FTy}
    (a : FVec Ideal ⟨2, ![K, M]⟩ φ₁) (b : FVec Ideal ⟨2, ![K, N]⟩ φ₂) (prec : Option ContractPrecision) (r : Fin M) (c : Fin N) :
    matmul (dims K M N) prec a b (constant ⟨2, ![M, N]⟩ .f32 0x00000000#32) (ix2 r c)
      = ∑ k : Fin K, a (ix2 k r) * b (ix2 k c) := by
  show FloatOps.matmul (dims K M N) prec a b (constant ⟨2, ![M, N]⟩ .f32 0x00000000#32) (ix2 r c) = _
  rw [Ideal.matmul_constant_zero_apply, ← Equiv.sum_comp (contrEquiv1 (dims K M N) K rfl rfl).symm]
  refine Finset.sum_congr rfl fun k _ => ?_
  rw [lhsIdx_dims, rhsIdx_dims]

end Cert.TransposedLhsMatmul
-- ==== Proof.KernelPayload.lean ====
/-
  What the kernel body stores, at an entry.

  The body loads the (b, h) blocks of q, k and v as 1 × 2048 × 64 vectors, drops the leading unit axis, forms the
  64 × 64 matrix Kᵀ V (both operands contracted on the sequence axis), then Q times that matrix, and stores the
  result with the unit axis put back.  The changes of float format in between are the identity on the extended
  reals.  So entry (0, l, e) of the stored block is

      ∑ d, Q[l, d] · (∑ m, K[m, d] · V[m, e]),

  the key-value-first grouping on one block.
-/
import proofs.«136463_j52398601012060_1_alg».proof.Proof.Gen.KernelIdeal.Skeleton
import proofs.«136463_j52398601012060_1_alg».proof.Proof.LibPlainMatmul
import proofs.«136463_j52398601012060_1_alg».proof.Proof.LibTransposedLhsMatmul
import Idealize.ShloMosaic.Lib.Pipeline.Value

namespace Cert.KernelIdeal.Payload

open Cert.KernelIdeal Cert.KernelIdeal.Gen Idealize.ShloMosaic Idealize.ShloMosaic.ValueIdx

/-- The first product's dimension numbers: both operands contracted on their first (sequence) axis. -/
theorem keyValue_dims : dot_S2048x64_S2048x64_S64x64_0_0_1_1_n_n = Cert.TransposedLhsMatmul.dims 2048 64 64 := rfl

/-- The second product's dimension numbers: a plain rows-by-columns product. -/
theorem output_dims : dot_S2048x64_S64x64_S2048x64_1_0_0_1_n_n = DotDims.plain 2048 64 64 := rfl

/-- A block with its leading unit axis dropped: entry (l, d) of the matrix is entry (0, l, d) of the block. -/
theorem dropUnit_apply (x : Vec Ideal S1x2048x64 .f32) (l : Fin 2048) (d : Fin 64) :
    shapeCast S2048x64 x Facts₀.shapeCasts_S1x2048x64_S2048x64 (ix2 l d) = x (ix3 0 l d) :=
  (shapeCast_dropUnit_apply (n := 2) ![2048, 64] x _ (ix2 l d)).trans
    (congrArg x (funext fun a => by match a with | ⟨0, _⟩ => rfl | ⟨1, _⟩ => rfl | ⟨2, _⟩ => rfl))

/-- A matrix with a leading unit axis added: entry (z, l, e) of the block is entry (l, e) of the matrix. -/
theorem addUnit_apply (y : FVec Ideal S2048x64 .f32) (z : Fin 1) (l : Fin 2048) (e : Fin 64) :
    shapeCast S1x2048x64 y Facts₀.shapeCasts_S2048x64_S1x2048x64 (ix3 z l e) = y (ix2 l e) :=
  (shapeCast_addUnit_apply (n := 2) ![2048, 64] y _ (ix3 z l e)).trans
    (congrArg y (funext fun a => by match a with | ⟨0, _⟩ => rfl | ⟨1, _⟩ => rfl))

/-- The stored block at (z, l, e): row l of the query block against column e of the block's key-value matrix. -/
theorem payload_apply (x0 x1 x2 : Vec Ideal S1x2048x64 .f32) (z : Fin 1) (l : Fin 2048) (e : Fin 64) :
    k0_pay1 (F := Ideal) x0 x1 x2 (ix3 z l e)
      = ∑ d : Fin 64, x0 (ix3 0 l d) * ∑ m : Fin 2048, x1 (ix3 0 m d) * x2 (ix3 0 m e) := by
  unfold k0_pay1
  rw [addUnit_apply, output_dims, Cert.PlainMatmul.matmul_plain_zero_apply]
  refine Finset.sum_congr rfl fun d _ => ?_
  rw [truncf_apply, truncf_apply, dropUnit_apply, keyValue_dims,
    Cert.TransposedLhsMatmul.matmul_transposedLhs_zero_apply]
  refine congrArg (x0 (ix3 0 l d) * ·) (Finset.sum_congr rfl fun m _ => ?_)
  rw [truncf_apply, truncf_apply, dropUnit_apply, dropUnit_apply]

end Cert.KernelIdeal.Payload
-- ==== Proof.HeadMerge.lean ====
/-
  Merging the batch and head axes, and splitting them again.

  A [2, 16, 2048, 64] array and a [32, 2048, 64] array with the same elements in row-major order: entry (b, h, l, d) of
  the one is entry (16 b + h, l, d) of the other, the row-major position of both being ((16 b + h) · 2048 + l) · 64 + d.
-/
import Idealize.ShloMosaic.Lib.Pipeline.Value
import Idealize.ShloMosaic.Lib.ValueIdx

namespace Cert.HeadMerge

open Idealize.ShloMosaic Idealize.ShloMosaic.ValueIdx

/-- Batch by heads by sequence by head dimension. -/
abbrev BHLD : Shape := ⟨4, ![2, 16, 2048, 64]⟩
/-- The batch and head axes merged. -/
abbrev MLD : Shape := ⟨3, ![32, 2048, 64]⟩

/-- The merged coordinate 16 b + h of batch entry b and head h. -/
def merged (b : Fin 2) (h : Fin 16) : Fin 32 := ⟨b.val * 16 + h.val, by have := b.isLt; have := h.isLt; omega⟩

/-- The two multi-indices have one row-major position. -/
theorem rowMajor_eq (b : Fin 2) (h : Fin 16) (l : Fin 2048) (d : Fin 64) :
    (BHLD.rowMajor (ix4 b h l d)).val = (MLD.rowMajor (ix3 (merged b h) l d)).val := by
  rw [Shape.rowMajor_val_four, Shape.rowMajor_val_three]
  rfl

/-- The merged array at (16 b + h, l, d) is the four-axis array at (b, h, l, d). -/
theorem merge_apply {α : Type} (x : BHLD.Idx → α) (hc : BHLD.ShapeCasts MLD) (b : Fin 2) (h : Fin 16) (l : Fin 2048) (d : Fin 64) :
    shapeCast MLD x hc (ix3 (merged b h) l d) = x (ix4 b h l d) :=
  shapeCast_apply x hc (ix3 (merged b h) l d) (ix4 b h l d) (rowMajor_eq b h l d)

/-- The split array at (b, h, l, d) is the three-axis array at (16 b + h, l, d). -/
theorem split_apply {α : Type} (y : MLD.Idx → α) (hc : MLD.ShapeCasts BHLD) (b : Fin 2) (h : Fin 16) (l : Fin 2048) (d : Fin 64) :
    shapeCast BHLD y hc (ix4 b h l d) = y (ix3 (merged b h) l d) :=
  shapeCast_apply y hc (ix4 b h l d) (ix3 (merged b h) l d) (rowMajor_eq b h l d).symm

end Cert.HeadMerge
-- ==== Proof.KernelValue.lean ====
/-
  The kernel's result array.

  @main merges the batch and head axes of q, k and v (three reshapes to [32, 2048, 64]), runs the kernel once per merged
  index p on the blocks (p, ·, ·) of the three arrays, writing block (p, ·, ·) of a [32, 2048, 64] result, and splits
  the merged axis of the result again.  Each grid point stores its whole block, and the 32 blocks tile the result, so
  the merged result at (p, l, e) is row l of block p of the queries against column e of block p's 64 × 64 key-value
  matrix; with p = 16 b + h this is the key-value-first grouping of the three arrays at (b, h, l, e).
-/
import proofs.«136463_j52398601012060_1_alg».proof.Proof.Gen.KernelIdeal.Frame
import proofs.«136463_j52398601012060_1_alg».proof.Proof.KernelPayload
import proofs.«136463_j52398601012060_1_alg».proof.Proof.HeadMerge
import proofs.«136463_j52398601012060_1_alg».proof.Proof.TripleProduct
import Idealize.ShloMosaic.Lib.Pipeline.Value
import Idealize.ShloMosaic.Lib.StableHlo.Run

set_option maxRecDepth 16384

noncomputable section

namespace Cert.KernelIdeal.KeyValueFirst

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.TripleProduct (keyValueFirst)

variable (m : (ℓ : Loc nD τ sig) → Buf (Elt Ideal) ℓ) (ρ : Dev nD → PrngReg)

/-! ## The merged result as one function of the merged arrays -/

/-- Entry (p, l, e): row l of block p of `a0` against column e of the key-value matrix of blocks p of `a1` and `a2`. -/
def blockwise (a0 a1 a2 : S32x2048x64.Idx → EReal) : S32x2048x64.Idx → EReal := fun i =>
  ∑ d : Fin 64, a0 (ix3 (i 0) (i 1) d) * ∑ k : Fin 2048, a1 (ix3 (i 0) k d) * a2 (ix3 (i 0) k (i 2))

/-- The three merged arrays as the region finds them, and their blocks at a grid point, at their literal types. -/
abbrev qMerged (c : Dev nD) : S32x2048x64.Idx → EReal := V m c main_v0
abbrev kMerged (c : Dev nD) : S32x2048x64.Idx → EReal := V m c main_v1
abbrev vMerged (c : Dev nD) : S32x2048x64.Idx → EReal := V m c main_v2
abbrev qBlock (c : Dev nD) (t : Fin cfg0.N) : Vec Ideal S1x2048x64 .f32 := iblk m c 0 t
abbrev kBlock (c : Dev nD) (t : Fin cfg0.N) : Vec Ideal S1x2048x64 .f32 := iblk m c 1 t
abbrev vBlock (c : Dev nD) (t : Fin cfg0.N) : Vec Ideal S1x2048x64 .f32 := iblk m c 2 t

theorem zero_offsets : (![0, 0, 0] : Fin 3 → Nat) = fun _ => 0 := funext fun a => by fin_cases a <;> rfl

/-- Every window's block index at grid point t is (t, 0, 0), and there are 32 points. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ t.val < 32 :=
  (by decide +kernel : ∀ t : Fin grid0.N, _)

/-- The grid point as a merged index. -/
def point (t : Fin cfg0.N) : Fin 32 := ⟨t.val, (block_index t).2.2.2.2⟩

/-- Entry (z, l, d) of a window's block at point t is entry (t, l, d) of its array. -/
theorem emb0 (t : Fin cfg0.N) (z : Fin 1) (l : Fin 2048) (d : Fin 64) :
    ((cfg0.win 0).blk t).view.emb (ix3 z l d) = ix3 (point t) l d := by
  obtain ⟨⟨e0, e1, e2⟩, -⟩ := block_index t
  funext a; apply Fin.ext
  match a with
  | ⟨0, _⟩ => show win0_0.index t (0 : Fin 3) * 1 + 1 * z.val = t.val; have := z.isLt; omega
  | ⟨1, _⟩ => show win0_0.index t (1 : Fin 3) * 2048 + 1 * l.val = l.val; omega
  | ⟨2, _⟩ => show win0_0.index t (2 : Fin 3) * 64 + 1 * d.val = d.val; omega
theorem emb1 (t : Fin cfg0.N) (z : Fin 1) (l : Fin 2048) (d : Fin 64) :
    ((cfg0.win 1).blk t).view.emb (ix3 z l d) = ix3 (point t) l d := by
  obtain ⟨-, ⟨e0, e1, e2⟩, -⟩ := block_index t
  funext a; apply Fin.ext
  match a with
  | ⟨0, _⟩ => show win0_1.index t (0 : Fin 3) * 1 + 1 * z.val = t.val; have := z.isLt; omega
  | ⟨1, _⟩ => show win0_1.index t (1 : Fin 3) * 2048 + 1 * l.val = l.val; omega
  | ⟨2, _⟩ => show win0_1.index t (2 : Fin 3) * 64 + 1 * d.val = d.val; omega
theorem emb2 (t : Fin cfg0.N) (z : Fin 1) (l : Fin 2048) (d : Fin 64) :
    ((cfg0.win 2).blk t).view.emb (ix3 z l d) = ix3 (point t) l d := by
  obtain ⟨-, -, ⟨e0, e1, e2⟩, -⟩ := block_index t
  funext a; apply Fin.ext
  match a with
  | ⟨0, _⟩ => show win0_2.index t (0 : Fin 3) * 1 + 1 * z.val = t.val; have := z.isLt; omega
  | ⟨1, _⟩ => show win0_2.index t (1 : Fin 3) * 2048 + 1 * l.val = l.val; omega
  | ⟨2, _⟩ => show win0_2.index t (2 : Fin 3) * 64 + 1 * d.val = d.val; omega
theorem emb3 (t : Fin cfg0.N) (z : Fin 1) (l : Fin 2048) (d : Fin 64) :
    ((cfg0.win 3).blk t).view.emb (ix3 z l d) = ix3 (point t) l d := by
  obtain ⟨-, -, -, ⟨e0, e1, e2⟩, -⟩ := block_index t
  funext a; apply Fin.ext
  match a with
  | ⟨0, _⟩ => show win0_3.index t (0 : Fin 3) * 1 + 1 * z.val = t.val; have := z.isLt; omega
  | ⟨1, _⟩ => show win0_3.index t (1 : Fin 3) * 2048 + 1 * l.val = l.val; omega
  | ⟨2, _⟩ => show win0_3.index t (2 : Fin 3) * 64 + 1 * d.val = d.val; omega

/-! ## What a grid point writes back, and the array after the run -/

/-- A window's block at point t reads its merged array at (t, ·, ·). -/
theorem block_q (c : Dev nD) (t : Fin cfg0.N) (z : Fin 1) (l : Fin 2048) (d : Fin 64) :
    qBlock m c t (ix3 z l d) = qMerged m c (ix3 (point t) l d) := by
  show qMerged m c (((cfg0.win 0).blk t).view.emb (ix3 z l d)) = _
  rw [emb0]
theorem block_k (c : Dev nD) (t : Fin cfg0.N) (z : Fin 1) (l : Fin 2048) (d : Fin 64) :
    kBlock m c t (ix3 z l d) = kMerged m c (ix3 (point t) l d) := by
  show kMerged m c (((cfg0.win 1).blk t).view.emb (ix3 z l d)) = _
  rw [emb1]
theorem block_v (c : Dev nD) (t : Fin cfg0.N) (z : Fin 1) (l : Fin 2048) (d : Fin 64) :
    vBlock m c t (ix3 z l d) = vMerged m c (ix3 (point t) l d) := by
  show vMerged m c (((cfg0.win 2).blk t).view.emb (ix3 z l d)) = _
  rw [emb2]

/-- The stored block of three blocks that read three arrays at (p, ·, ·) is block p of `blockwise` of the arrays. -/
theorem payload_block (x0 x1 x2 : Vec Ideal S1x2048x64 .f32) (a0 a1 a2 : S32x2048x64.Idx → EReal) (p : Fin 32)
    (h0 : ∀ z l d, x0 (ix3 z l d) = a0 (ix3 p l d)) (h1 : ∀ z l d, x1 (ix3 z l d) = a1 (ix3 p l d))
    (h2 : ∀ z l d, x2 (ix3 z l d) = a2 (ix3 p l d)) (z : Fin 1) (l : Fin 2048) (e : Fin 64) :
    k0_pay1 (F := Ideal) x0 x1 x2 (ix3 z l e) = blockwise a0 a1 a2 (ix3 p l e) := by
  rw [Payload.payload_apply]
  show _ = ∑ d : Fin 64, a0 (ix3 p l d) * ∑ k : Fin 2048, a1 (ix3 p k d) * a2 (ix3 p k e)
  simp only [h0, h1, h2]

/-- What point t writes back is block t of `blockwise` of the three merged arrays as the region finds them. -/
theorem flushed_eq (c : Dev nD) (t : Fin cfg0.N) :
    (dats m 0 c).flushed 3 t
      = ((cfg0.win 3).blk t).view.read (Elt Ideal) (blockwise (qMerged m c) (kMerged m c) (vMerged m c)) := by
  show (cfg0.win 3).cut (grid0.coords t) ((dats m 0 c).after 3 t) = _
  rw [after0_3]
  unfold out0_3
  rw [View.canon_unit_zero zero_offsets]
  simp only [View.ld_unit_zero (S := S1x2048x64) zero_offsets]
  refine funext fun (j : S1x2048x64.Idx) => ?_
  obtain ⟨z, l, e, rfl⟩ : ∃ (z : Fin 1) (l : Fin 2048) (e : Fin 64), j = ix3 z l e := ⟨j 0, j 1, j 2, eq_ix3 j⟩
  show k0_pay1 (qBlock m c t) (kBlock m c t) (vBlock m c t) (ix3 z l e)
      = blockwise (qMerged m c) (kMerged m c) (vMerged m c) (((cfg0.win 3).blk t).view.emb (ix3 z l e))
  rw [emb3]
  exact payload_block (qBlock m c t) (kBlock m c t) (vBlock m c t) (qMerged m c) (kMerged m c) (vMerged m c) (point t)
    (block_q m c t) (block_k m c t) (block_v m c t) z l e

/-- An index of the merged result is in point t's block iff each coordinate is in the block's range on its axis. -/
theorem mem_blk (t : Fin cfg0.N) (i : S32x2048x64.Idx) :
    i ∈ ((cfg0.win 3).blk t).view.set ↔ ∀ a : Fin 3, win0_3.index t a * S1x2048x64.size a ≤ (i a).val ∧ (i a).val < win0_3.index t a * S1x2048x64.size a + S1x2048x64.size a := by
  show i ∈ ((View.whole main_v3).slice (win0_3.rect t)).set ↔ _
  rw [View.set_slice_whole, Rect.mem_set_unit]
  exact Iff.rfl

/-- The 32 blocks tile the merged result: index (p, l, e) is in the block of point p. -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ : ∃ t : Fin cfg0.N, t.val = (i 0).val := ⟨⟨(i 0).val, lt_of_lt_of_eq hi0 N_0.symm⟩, rfl⟩
  obtain ⟨-, -, -, ⟨e0, e1, e2⟩, -⟩ := block_index t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 64 ≤ (i 2).val ∧ (i 2).val < win0_3.index t (2 : Fin 3) * 64 + 64; omega

/-- The merged result after the run. -/
theorem merged_result (c : Dev nD) :
    (dats m 0 c).arrAt 3 cfg0.N = blockwise (qMerged m c) (kMerged m c) (vMerged m c) :=
  (dats m 0 c).arrAt_eq_of_cover 3 _ (fun t _ => flushed_eq m c t) cover

/-! ## The host lines before and after the region -/

/-- The region finds each merged array at its argument with the batch and head axes merged. -/
theorem merged_q (c : Dev nD) : qMerged m c
    = shapeCast S32x2048x64 (m ((c : Thread nD τ).loc main_arg0)) Facts₀.shapeCasts_S2x16x2048x64_S32x2048x64 := by
  show StableHlo.after hostOps0 (fun b => m (c, b)) (Proc.devRef .tc main_v0) = _
  after_results
  rfl
theorem merged_k (c : Dev nD) : kMerged m c
    = shapeCast S32x2048x64 (m ((c : Thread nD τ).loc main_arg1)) Facts₀.shapeCasts_S2x16x2048x64_S32x2048x64 := by
  show StableHlo.after hostOps0 (fun b => m (c, b)) (Proc.devRef .tc main_v1) = _
  after_results
  rfl
theorem merged_v (c : Dev nD) : vMerged m c
    = shapeCast S32x2048x64 (m ((c : Thread nD τ).loc main_arg2)) Facts₀.shapeCasts_S2x16x2048x64_S32x2048x64 := by
  show StableHlo.after hostOps0 (fun b => m (c, b)) (Proc.devRef .tc main_v2) = _
  after_results
  rfl

/-- @main's result: the merged result with its leading axis split into batch and heads. -/
theorem split_result (c : Dev nD) :
    (Pipeline.afterTail₀ cfgs (dats m) 0 (V0 m) [hostOps1] c main_v4 : S2x16x2048x64.Idx → EReal)
      = shapeCast S2x16x2048x64 (blockwise (qMerged m c) (kMerged m c) (vMerged m c)) Facts₀.shapeCasts_S32x2048x64_S2x16x2048x64 := by
  have harr : (Pipeline.withArrays (cfgs 0).spec c (V0 m c) (fun w => (dats m 0 c).arrAt w (cfgs 0).N) (Proc.devRef .tc main_v3) : S32x2048x64.Idx → EReal)
      = blockwise (qMerged m c) (kMerged m c) (vMerged m c) :=
    (Pipeline.withArrays_arr spec0 launch0.win.arr_inj c _ _ 3).trans (merged_result m c)
  unfold Pipeline.afterTail₀
  show StableHlo.after hostOps1 _ (Proc.devRef .tc main_v4) = _
  after_results
  exact congrArg (fun y : S32x2048x64.Idx → EReal => shapeCast S2x16x2048x64 y Facts₀.shapeCasts_S32x2048x64_S2x16x2048x64) harr

/-- `blockwise` of three arrays with their batch and head axes merged, at (16 b + h, l, e), is the key-value-first
    grouping of the arrays at (b, h, l, e). -/
theorem blockwise_merged (q k v : S2x16x2048x64.Idx → EReal) (hc : S2x16x2048x64.ShapeCasts S32x2048x64)
    (b : Fin 2) (h : Fin 16) (l : Fin 2048) (e : Fin 64) :
    blockwise (shapeCast S32x2048x64 q hc) (shapeCast S32x2048x64 k hc) (shapeCast S32x2048x64 v hc)
        (ix3 (Cert.HeadMerge.merged b h) l e)
      = keyValueFirst q k v (ix4 b h l e) := by
  show (∑ d : Fin 64, shapeCast S32x2048x64 q hc (ix3 (Cert.HeadMerge.merged b h) l d)
        * ∑ j : Fin 2048, shapeCast S32x2048x64 k hc (ix3 (Cert.HeadMerge.merged b h) j d)
          * shapeCast S32x2048x64 v hc (ix3 (Cert.HeadMerge.merged b h) j e))
      = ∑ d : Fin 64, q (ix4 b h l d) * ∑ j : Fin 2048, k (ix4 b h j d) * v (ix4 b h j e)
  simp only [Cert.HeadMerge.merge_apply]

/-- @main's result at (b, h, l, e) is the key-value-first grouping of the three arguments there. -/
theorem result_eq (c : Dev nD) :
    (Pipeline.afterTail₀ cfgs (dats m) 0 (V0 m) [hostOps1] c main_v4 : S2x16x2048x64.Idx → EReal)
      = keyValueFirst (m ((c.tc : Thread nD τ).loc main_arg0)) (m ((c.tc : Thread nD τ).loc main_arg1)) (m ((c.tc : Thread nD τ).loc main_arg2)) := by
  rw [split_result]
  funext i
  obtain ⟨b, h, l, e, rfl⟩ : ∃ (b : Fin 2) (h : Fin 16) (l : Fin 2048) (e : Fin 64), i = ix4 b h l e := ⟨i 0, i 1, i 2, i 3, eq_ix4 i⟩
  rw [Cert.HeadMerge.split_apply, merged_q, merged_k, merged_v]
  exact blockwise_merged (m ((c.tc : Thread nD τ).loc main_arg0)) (m ((c.tc : Thread nD τ).loc main_arg1))
    (m ((c.tc : Thread nD τ).loc main_arg2)) Facts₀.shapeCasts_S2x16x2048x64_S32x2048x64 b h l e

/-! ## The run, read -/

/-- The frame run re-posted for arguments of real numbers: @main's result at the scores-first grouping of the
    arguments (equal to the key-value-first one there), the arguments unchanged. -/
theorem run (hreal : ∀ c : Dev nD, Cert.TripleProduct.AllReal (m ((c.tc : Thread nD τ).loc main_arg0))
      ∧ Cert.TripleProduct.AllReal (m ((c.tc : Thread nD τ).loc main_arg1))
      ∧ Cert.TripleProduct.AllReal (m ((c.tc : Thread nD τ).loc main_arg2))) :
    θ_run defs (onTc (τ := τ) (main (F := Ideal))) ⟨m, fun _ => 0, ρ⟩ fun r => ∀ c : Dev nD,
      r.2.mem ((c.tc : Thread nD τ).loc main_v4)
        = Cert.TripleProduct.scoresFirst (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v4 (Pipeline.mem_restRefs_of main_v4 (by decide) (by decide))).trans
          ((result_eq m c).trans (Cert.TripleProduct.keyValueFirst_eq_scoresFirst (hreal c).1 (hreal c).2.1 (hreal c).2.2)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KeyValueFirst

end
-- ==== Proof.lean ====
/-
  Attention without a softmax, in two groupings.

  For each batch entry and head the reference multiplies the 2048 × 2048 matrix of scores Q Kᵀ by V; the kernel never
  forms the scores: it multiplies Q by the 64 × 64 matrix Kᵀ V.  On the extended reals, with every operation exact and
  every change of float format the identity, entry (b, h, l, e) of the reference's result is
  ∑ m, (∑ d, q[b,h,l,d] · k[b,h,m,d]) · v[b,h,m,e]  and of the kernel's  ∑ d, q[b,h,l,d] · (∑ m, k[b,h,m,d] · v[b,h,m,e]).
  Both are the double sum of q · k · v over m and d, joined by distributing each outer factor over its inner sum and
  exchanging the sums.  Distributivity fails at the infinities, and this is where the precondition is used: every entry
  of q, k and v is finite, so all the sums are sums of real numbers.

  The modules: `TripleProduct` states the two groupings and proves the law; `FiniteInputs` reads the precondition;
  `ReferenceValue` reads the reference's two contractions index by index; `KernelPayload` reads the kernel body's two
  products on one block; `KernelValue` carries the blocks to the whole result through the merge and split of the batch
  and head axes; `HeadMerge` and the two `Lib…Matmul` modules are the index bookkeeping they share.

  The kernel ran no rewrite of the idealization, so the word-level kernel and its idealization are the same text and
  `preserves` has nothing to state; the three frames are the generated ones (the reference's is its run with the
  result dropped).
-/
import proofs.«136463_j52398601012060_1_alg».proof.Defs
import proofs.«136463_j52398601012060_1_alg».proof.Proof.Gen.Kernel
import proofs.«136463_j52398601012060_1_alg».proof.Proof.Gen.Kernel.Skeleton
import proofs.«136463_j52398601012060_1_alg».proof.Proof.Gen.Kernel.Launch
import proofs.«136463_j52398601012060_1_alg».proof.Proof.Gen.Kernel.Points
import proofs.«136463_j52398601012060_1_alg».proof.Proof.Gen.Kernel.Frame
import proofs.«136463_j52398601012060_1_alg».proof.Proof.Gen.KernelIdeal
import proofs.«136463_j52398601012060_1_alg».proof.Proof.Gen.KernelIdeal.Skeleton
import proofs.«136463_j52398601012060_1_alg».proof.Proof.Gen.KernelIdeal.Launch
import proofs.«136463_j52398601012060_1_alg».proof.Proof.Gen.KernelIdeal.Points
import proofs.«136463_j52398601012060_1_alg».proof.Proof.Gen.KernelIdeal.Frame
import proofs.«136463_j52398601012060_1_alg».proof.Proof.Gen.ReferenceIdeal
import proofs.«136463_j52398601012060_1_alg».proof.Proof.Gen.Pre_finite_inputs
import proofs.«136463_j52398601012060_1_alg».proof.Proof.Gen.ReferenceIdeal.Run
import proofs.«136463_j52398601012060_1_alg».proof.Proof.Gen.ReferenceIdeal.Read
import proofs.«136463_j52398601012060_1_alg».proof.Proof.TripleProduct
import proofs.«136463_j52398601012060_1_alg».proof.Proof.FiniteInputs
import proofs.«136463_j52398601012060_1_alg».proof.Proof.ReferenceValue
import proofs.«136463_j52398601012060_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the scores-first grouping of the arguments: the reference computes it as written, the
    kernel computes the key-value-first grouping, equal to it because the precondition makes every entry real. -/
theorem algebraic : Cert.algebraic_KernelIdeal_ReferenceIdeal := by
  intro m ρ m' ρ' hpre hagree
  have hreal : ∀ c : Dev Cert.KernelIdeal.nD,
      Cert.TripleProduct.AllReal (m ((c.tc : Thread Cert.KernelIdeal.nD Cert.KernelIdeal.τ).loc Cert.KernelIdeal.main_arg0))
      ∧ Cert.TripleProduct.AllReal (m ((c.tc : Thread Cert.KernelIdeal.nD Cert.KernelIdeal.τ).loc Cert.KernelIdeal.main_arg1))
      ∧ Cert.TripleProduct.AllReal (m ((c.tc : Thread Cert.KernelIdeal.nD Cert.KernelIdeal.τ).loc Cert.KernelIdeal.main_arg2)) :=
    fun c => Cert.FiniteInputs.allReal_of_pre _ _ _ (hpre c)
  refine ⟨_, Cert.KernelIdeal.KeyValueFirst.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Scores.reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
